-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x1 : Shape := ⟨2, ![1, 1]⟩
abbrev S8000x128 : Shape := ⟨2, ![8000, 128]⟩
abbrev S8000x1 : Shape := ⟨2, ![8000, 1]⟩
abbrev S8000 : Shape := ⟨1, ![8000]⟩

abbrev nBuf : Space → Nat
  | .hbm => 38
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S1600000x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x1, .f32⟩
  | .hbm, ⟨36, _⟩ => ⟨S1600000x1, .f32⟩
  | .hbm, ⟨37, _⟩ => ⟨S1600000, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x1, .f32⟩
  | .local _ .vmem, ⟨7, _⟩ => ⟨S1x1, .f32⟩
  | .local _ .vmem, ⟨8, _⟩ => ⟨S8000x1, .f32⟩
  | .local _ .vmem, ⟨9, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S128_S1x128 : S128.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  reduces_S8000x128_S8000 : S8000x128.Reduces [1] S8000
  shapeCasts_S8000_S8000x1 : S8000.ShapeCasts S8000x1
  broadcasts_S8000x1_S8000x128 : S8000x1.Broadcasts S8000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S1600000x1_S1600000 : S1600000x1.ShapeCasts S1600000
  gather_S100000x128_S1600000x1_S1600000x128_1_0_n_n_0_1_1128_wf : GatherDims.WF S100000x128 S1600000x1 S1600000x128 [1] [0] [] [0] [] 1 ![1, 128]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x1.size a ≤ S1600000x1.size a
  hwx0_7 : ∀ i : grid0.Coords, EltTy.bits .f32 = 32 ∨ (Rect.block (s := S1600000x1) S8000x1.size (cc0_transform_7 i) (hinb0_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_v18) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S8000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S1600000x128, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S1600000, .f32⟩
  | .hbm, ⟨38, _⟩ => ⟨S1600000x1, .f32⟩
  | .hbm, ⟨39, _⟩ => ⟨S_, .f32⟩
  | .hbm, ⟨40, _⟩ => ⟨S1600000x1, .f32⟩
  | .hbm, ⟨41, _⟩ => ⟨S1600000x1, .f32⟩
  | .hbm, ⟨42, _⟩ => ⟨S1600000x128, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S1600000, .f32⟩
  | .hbm, ⟨47, _⟩ => ⟨S1600000x1, .f32⟩
  | .hbm, ⟨48, _⟩ => ⟨S_, .f32⟩
  | .hbm, ⟨49, _⟩ => ⟨S1600000x1, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S1600000x1, .f32⟩
  | .hbm, ⟨55, _⟩ => ⟨S1600000x1, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S1x128, .f32⟩
  | .hbm, ⟨60, _⟩ => ⟨S1600000x128, .f32⟩
  | .hbm, ⟨61, _⟩ => ⟨S1600000x128, .f32⟩
  | .hbm, ⟨62, _⟩ => ⟨S1x128, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S1600000x128, .f32⟩
  | .hbm, ⟨67, _⟩ => ⟨S1600000x128, .f32⟩
  | .hbm, ⟨68, _⟩ => ⟨S1600000x1, .f32⟩
  | .hbm, ⟨69, _⟩ => ⟨S1x1, .f32⟩
  | .hbm, ⟨70, _⟩ => ⟨S1600000x1, .f32⟩
  | .hbm, ⟨71, _⟩ => ⟨S1600000x1, .f32⟩
  | .hbm, ⟨72, _⟩ => ⟨S1600000x1, .f32⟩
  | .hbm, ⟨73, _⟩ => ⟨S1600000x1, .f32⟩
  | .hbm, ⟨74, _⟩ => ⟨S_, .f32⟩
  | .hbm, ⟨75, _⟩ => ⟨S1600000x1, .f32⟩
  | .hbm, ⟨76, _⟩ => ⟨S1600000x1, .f32⟩
  | .hbm, ⟨77, _⟩ => ⟨S_, .f32⟩
  | .hbm, ⟨78, _⟩ => ⟨S1600000x1, .f32⟩
  | .hbm, ⟨79, _⟩ => ⟨S1600000x1, .f32⟩
  | .hbm, ⟨80, _⟩ => ⟨S1600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call0_cst : Ref sig .tc := ⟨.hbm, 65, rfl⟩
abbrev main_call0_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  reducesTo_S1600000x128_S1600000_d1 : S1600000x128.ReducesTo [1] S1600000
  h_S_ : 0 < S_.numel
  bcast_S_S1600000x1 : S_.BroadcastsInDim S1600000x1 (![] : Fin 0 → Fin S1600000x1.rank)
  bcast_S1600000x1_S1600000x128_0_1 : S1600000x1.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  gather_S100000x128_S1600000x1_S1600000x128_1_0_n_n_0_1_1128_wf : GatherDims.WF S100000x128 S1600000x1 S1600000x128 [1] [0] [] [0] [] 1 ![1, 128]
  dot_S1600000x128_S128x128_S1600000x128_1_0_0_1_n_n_wf : DotDims.WF S1600000x128 S128x128 S1600000x128 [1] [0] [0] [1] [] []
  dot_S1600000x128_S128x1_S1600000x1_1_0_0_1_n_n_wf : DotDims.WF S1600000x128 S128x1 S1600000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.RowScore.lean ====
/-
  One edge's score as a function of plain extended reals.

  For one edge the feature row `e : Fin 128 → EReal` goes through
    h   = e · W1 + b1                                   (a row of 128 entries),
    μ   = (Σ h) / 128,   σ² = (Σ (h − μ)²) / 128,
    y   = (h − μ) · rsqrt(σ² + ε) · g + β,
    z   = max(y, 0),
    s   = logistic(z · w2 + b2).
  Every operation is the exact one on the extended reals; the three float literals (128, ε, +0) are kept as the
  words both programs spell, so nothing here depends on their values except that +0 denotes 0 and 1.0 denotes 1.
-/
import Idealize.ShloMosaic.PureOps.Ideal
import Idealize.ShloMosaic.PureOps.Ideal.Laws

open scoped BigOperators

noncomputable section

namespace EdgeScore

open Idealize.ShloMosaic

/-- The word of `128.0`, the row length the mean and the variance divide by. -/
abbrev w128 : EReal := Ideal.ofBits .f32 0x43000000#32
/-- The word of the layer norm's `ε` (the float nearest `1e-5`). -/
abbrev wEps : EReal := Ideal.ofBits .f32 0x3727C5AC#32
/-- The word of `+0.0`, the floor of the rectifier. -/
abbrev wZero : EReal := Ideal.ofBits .f32 0x00000000#32

/-- `1.0` denotes the extended real `1`. -/
theorem ofBits_one : Ideal.ofBits .f32 0x3F800000#32 = 1 := by
  simp [Ideal.ofBits, Ideal.ieee, -EReal.coe_mul]; norm_num

/-- The first linear layer on one row: entry `j` of `e · W + b`. -/
def lin (e : Fin 128 → EReal) (W : Fin 128 → Fin 128 → EReal) (b : Fin 128 → EReal) (j : Fin 128) : EReal :=
  (∑ k : Fin 128, e k * W k j) + b j

/-- The mean of a row of 128 entries. -/
def mean (h : Fin 128 → EReal) : EReal := Ideal.div (∑ j : Fin 128, h j) w128

/-- The (biased) variance of a row: the mean of the squared deviations from the row's mean. -/
def var (h : Fin 128 → EReal) : EReal :=
  Ideal.div (∑ j : Fin 128, (h j - mean h) * (h j - mean h)) w128

/-- Layer normalisation of a row with gain `g` and shift `β`, entry `j`. -/
def lnorm (h g β : Fin 128 → EReal) (j : Fin 128) : EReal :=
  (h j - mean h) * Ideal.rsqrt (var h + wEps) * g j + β j

/-- The rectifier on an entry. -/
def relu (y : EReal) : EReal := max y wZero

/-- The hidden row after the first layer, the normalisation and the rectifier. -/
def hidden (e : Fin 128 → EReal) (W1 : Fin 128 → Fin 128 → EReal) (b1 g β : Fin 128 → EReal) (k : Fin 128) : EReal :=
  relu (lnorm (lin e W1 b1) g β k)

/-- The edge's score: the logistic of the second linear layer (128 → 1) on the hidden row. -/
def score (e : Fin 128 → EReal) (W1 : Fin 128 → Fin 128 → EReal) (b1 g β : Fin 128 → EReal) (w2 : Fin 128 → EReal) (b2 : EReal) : EReal :=
  Ideal.logistic ((∑ k : Fin 128, hidden e W1 b1 g β k * w2 k) + b2)

/-- The logistic spelt out with the word of `1.0`: `1 / (1 + exp (−x))`. -/
theorem logistic_spelt (x : EReal) :
    Ideal.div (Ideal.ofBits .f32 0x3F800000#32) (Ideal.ofBits .f32 0x3F800000#32 + Ideal.exp (-x)) = Ideal.logistic x := by
  rw [ofBits_one]; rfl

end EdgeScore

end
-- ==== Proof.KernelRow.lean ====
/-
  The kernel body's one store, read at a row.

  The body computes, for the block of 8000 edge rows it is handed, exactly the row function `EdgeScore.score`
  of each row: the two matrix products accumulate into a zero block (so they are plain sums over the contracted
  index), the two lane sums are sums over the row, a column kept as a unit axis is read at its row, and every
  other operation acts entry by entry. The change of format to bf16 before each product is the identity on the
  extended reals.
-/
import proofs.«133494_j55216099557609_1_alg».proof.Proof.Gen.KernelIdeal.Skeleton
import proofs.«133494_j55216099557609_1_alg».proof.Proof.LibKeepdims
import proofs.«133494_j55216099557609_1_alg».proof.Proof.RowScore
import Idealize.ShloMosaic.Lib.ValueLayout
import Idealize.ShloMosaic.Lib.ValueIdx
import Idealize.ShloMosaic.Lib.Pipeline.Value
import Idealize.ShloMosaic.PureOps.Ideal.Laws

open scoped BigOperators

noncomputable section

namespace Cert.KernelIdeal.RowValue

open Cert.KernelIdeal Cert.KernelIdeal.Gen Idealize.ShloMosaic Idealize.ShloMosaic.ValueIdx EdgeScore

/-! ## The two matrix products at an index -/

theorem lhsA_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhsA_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhsA_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhsA_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The first product, into a zero block: entry `(p, j)` is `Σ_k l(p,k) · r(k,j)`. -/
theorem matmulA_apply (l : FVec Ideal S8000x128 .bf16) (r : FVec Ideal S128x128 .bf16) (p : Fin 8000) (j : Fin 128) :
    matmul dot_S8000x128_S128x128_S8000x128_1_0_0_1_n_n none l r (constant (F := Ideal) S8000x128 .f32 0x00000000#32) (ix2 p j)
      = ∑ k : Fin 128, l (ix2 p k) * r (ix2 k j) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p j) ((contrEquiv1 dot_S8000x128_S128x128_S8000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S8000x128_S128x128_S8000x128_1_0_0_1_n_n.rhsIdx (ix2 p j) ((contrEquiv1 dot_S8000x128_S128x128_S8000x128_1_0_0_1_n_n 128 rfl rfl).symm k) = ix2 k j := funext fun a => Fin.ext (by
    match a with
    | ⟨0, _⟩ => exact (rhsA_0 _ _).trans hk
    | ⟨1, _⟩ => exact rhsA_1 _ _)
  rw [el, er]

theorem lhsB_0 (i : S8000x1.Idx) (q : dot_S8000x128_S128x1_S8000x1_1_0_0_1_n_n.contr.Idx) :
    (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide), dif_pos (show (0 : Fin S8000x128.rank) ∈ dot_S8000x128_S128x1_S8000x1_1_0_0_1_n_n.lhsNonContracting by decide)]
  rfl
theorem lhsB_1 (i : S8000x1.Idx) (q : dot_S8000x128_S128x1_S8000x1_1_0_0_1_n_n.contr.Idx) :
    (dot_S8000x128_S128x1_S8000x1_1_0_0_1_n_n.lhsIdx i q 1).val = (q ⟨0, by decide⟩).val :=
  dot_S8000x128_S128x1_S8000x1_1_0_0_1_n_n.lhsIdx_val_of_single rfl i q
theorem rhsB_0 (i : S8000x1.Idx) (q : dot_S8000x128_S128x1_S8000x1_1_0_0_1_n_n.contr.Idx) :
    (dot_S8000x128_S128x1_S8000x1_1_0_0_1_n_n.rhsIdx i q 0).val = (q ⟨0, by decide⟩).val :=
  dot_S8000x128_S128x1_S8000x1_1_0_0_1_n_n.rhsIdx_val_of_single rfl i q
theorem rhsB_1 (i : S8000x1.Idx) (q : dot_S8000x128_S128x1_S8000x1_1_0_0_1_n_n.contr.Idx) :
    (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide), dif_pos (show (1 : Fin S128x1.rank) ∈ dot_S8000x128_S128x1_S8000x1_1_0_0_1_n_n.rhsNonContracting by decide)]
  rfl

/-- The second product (128 → 1), into a zero block: entry `(p, u)` is `Σ_k l(p,k) · r(k,u)`. -/
theorem matmulB_apply (l : FVec Ideal S8000x128 .bf16) (r : FVec Ideal S128x1 .bf16) (p : Fin 8000) (u : Fin 1) :
    matmul dot_S8000x128_S128x1_S8000x1_1_0_0_1_n_n none l r (constant (F := Ideal) S8000x1 .f32 0x00000000#32) (ix2 p u)
      = ∑ k : Fin 128, l (ix2 p k) * r (ix2 k u) := by
  simp only [matmul]
  rw [Ideal.matmul_constant_zero_apply, ← Equiv.sum_comp (contrEquiv1 dot_S8000x128_S128x1_S8000x1_1_0_0_1_n_n 128 rfl rfl).symm]
  refine Finset.sum_congr rfl fun k _ => ?_
  have hk := contrEquiv1_symm_val dot_S8000x128_S128x1_S8000x1_1_0_0_1_n_n 128 rfl rfl k
  have el : dot_S8000x128_S128x1_S8000x1_1_0_0_1_n_n.lhsIdx (ix2 p u) ((contrEquiv1 dot_S8000x128_S128x1_S8000x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S8000x128_S128x1_S8000x1_1_0_0_1_n_n.rhsIdx (ix2 p u) ((contrEquiv1 dot_S8000x128_S128x1_S8000x1_1_0_0_1_n_n 128 rfl rfl).symm k) = ix2 k u := funext fun a => Fin.ext (by
    match a with
    | ⟨0, _⟩ => exact (rhsB_0 _ _).trans hk
    | ⟨1, _⟩ => exact rhsB_1 _ _)
  rw [el, er]

/-! ## The body's stages as block functions -/

/-- The first layer on the block: `e · W1` plus the bias row broadcast over the rows. -/
def kLin (x0 : Vec Ideal S8000x128 .f32) (x1 : Vec Ideal S128x128 .f32) (x2 : Vec Ideal S1x128 .f32) : FVec Ideal S8000x128 .f32 :=
  addf (matmul dot_S8000x128_S128x128_S8000x128_1_0_0_1_n_n none
      (truncf .bf16 (shapeCast S8000x128 x0 shapeCasts_S8000x128_S8000x128) bitsLt_bf16_f32) (truncf .bf16 x1 bitsLt_bf16_f32)
      (constant (F := Ideal) S8000x128 .f32 0x00000000#32))
    (broadcastTo S8000x128 (shapeCast S1x128 x2 shapeCasts_S1x128_S1x128) broadcasts_S1x128_S8000x128)

/-- The column of row means, kept as a unit axis. -/
def kMean (h : FVec Ideal S8000x128 .f32) : FVec Ideal S8000x1 .f32 :=
  divf (shapeCast S8000x1 (multiReduction (F := Ideal) .add [1] S8000 h 0x00000000#32 reduces_S8000x128_S8000 (.inl rfl) rfl) shapeCasts_S8000_S8000x1)
    (broadcast S8000x1 (Scalar.ofBits (F := Ideal) .f32 0x43000000#32))

/-- The block minus its row means. -/
def kCentred (h : FVec Ideal S8000x128 .f32) : FVec Ideal S8000x128 .f32 :=
  subf h (broadcastTo S8000x128 (kMean h) broadcasts_S8000x1_S8000x128)

/-- The column of row variances. -/
def kVar (h : FVec Ideal S8000x128 .f32) : FVec Ideal S8000x1 .f32 :=
  divf (shapeCast S8000x1 (multiReduction (F := Ideal) .add [1] S8000 (mulf (kCentred h) (kCentred h)) 0x00000000#32 reduces_S8000x128_S8000 (.inl rfl) rfl) shapeCasts_S8000_S8000x1)
    (broadcast S8000x1 (Scalar.ofBits (F := Ideal) .f32 0x43000000#32))

/-- Normalisation, gain, shift and rectifier on the block. -/
def kHidden (h : FVec Ideal S8000x128 .f32) (x3 x4 : Vec Ideal S1x128 .f32) : FVec Ideal S8000x128 .f32 :=
  maximumf
    (addf
      (mulf
        (mulf (kCentred h)
          (broadcastTo S8000x128 (rsqrt (addf (kVar h) (broadcast S8000x1 (Scalar.ofBits (F := Ideal) .f32 0x3727C5AC#32)))) broadcasts_S8000x1_S8000x128))
        (broadcastTo S8000x128 (shapeCast S1x128 x3 shapeCasts_S1x128_S1x128) broadcasts_S1x128_S8000x128))
      (broadcastTo S8000x128 (shapeCast S1x128 x4 shapeCasts_S1x128_S1x128) broadcasts_S1x128_S8000x128))
    (broadcast S8000x128 (Scalar.ofBits (F := Ideal) .f32 0x00000000#32))

/-- The second layer and the logistic on the block. -/
def kScore (z : FVec Ideal S8000x128 .f32) (w : FVec Ideal S128x1 .bf16) (x6 : Vec Ideal S1x1 .f32) : FVec Ideal S8000x1 .f32 :=
  logistic (addf
    (matmul dot_S8000x128_S128x1_S8000x1_1_0_0_1_n_n none (truncf .bf16 z bitsLt_bf16_f32) w (constant (F := Ideal) S8000x1 .f32 0x00000000#32))
    (broadcastTo S8000x1 (shapeCast S1x1 x6 shapeCasts_S1x1_S1x1) broadcasts_S1x1_S8000x1))

/-- The printed payloads are these stages composed. -/
theorem pay2_eq (x0 : Vec Ideal S8000x128 .f32) (x1 : Vec Ideal S128x128 .f32) (x2 x3 x4 : Vec Ideal S1x128 .f32) :
    k0_pay2 (F := Ideal) x0 x1 x2 x3 x4 = kHidden (kLin x0 x1 x2) x3 x4 := rfl
theorem pay1_eq (v37 : FVec Ideal S8000x128 .f32) (v39 : FVec Ideal S128x1 .bf16) (v42 : Vec Ideal S1x1 .f32) :
    k0_pay1 (F := Ideal) v37 v39 v42 = kScore v37 v39 v42 := rfl
theorem pay3_eq (x5 : Vec Ideal S128x1 .f32) : k0_pay3 (F := Ideal) x5 = truncf .bf16 x5 bitsLt_bf16_f32 := rfl

/-! ## Each stage at a row -/

theorem kLin_apply (x0 : Vec Ideal S8000x128 .f32) (x1 : Vec Ideal S128x128 .f32) (x2 : Vec Ideal S1x128 .f32) (p : Fin 8000) (j : Fin 128) :
    kLin x0 x1 x2 (ix2 p j) = lin (fun k => x0 (ix2 p k)) (fun k j => x1 (ix2 k j)) (fun j => x2 (ix2 (0 : Fin 1) j)) j := by
  unfold kLin lin
  rw [addf_apply, matmulA_apply, broadcastTo_1b_ab_apply, shapeCast_self, shapeCast_self]
  rfl

theorem kMean_apply (h : FVec Ideal S8000x128 .f32) (p : Fin 8000) (u : Fin 1) :
    kMean h (ix2 p u) = mean (fun j => h (ix2 p j)) := by
  unfold kMean mean
  rw [divf_apply, shapeCast_a_a1_apply]
  exact congrArg (fun s => Ideal.div s w128) (multiReduction_add_rows h _ _ _ _ p)

theorem kCentred_apply (h : FVec Ideal S8000x128 .f32) (p : Fin 8000) (j : Fin 128) :
    kCentred h (ix2 p j) = h (ix2 p j) - mean (fun j => h (ix2 p j)) := by
  unfold kCentred
  rw [subf_apply, broadcastTo_a1_ab_apply, kMean_apply]

theorem kVar_apply (h : FVec Ideal S8000x128 .f32) (p : Fin 8000) (u : Fin 1) :
    kVar h (ix2 p u) = var (fun j => h (ix2 p j)) := by
  unfold kVar var
  rw [divf_apply, shapeCast_a_a1_apply]
  refine (congrArg (fun s => Ideal.div s w128) (multiReduction_add_rows (mulf (kCentred h) (kCentred h)) _ _ _ _ p)).trans ?_
  simp only [mulf_apply, kCentred_apply]

theorem kHidden_apply (h : FVec Ideal S8000x128 .f32) (x3 x4 : Vec Ideal S1x128 .f32) (p : Fin 8000) (j : Fin 128) :
    kHidden h x3 x4 (ix2 p j) = relu (lnorm (fun j => h (ix2 p j)) (fun j => x3 (ix2 (0 : Fin 1) j)) (fun j => x4 (ix2 (0 : Fin 1) j)) j) := by
  unfold kHidden relu lnorm
  rw [maximumf_apply, addf_apply, mulf_apply, mulf_apply, kCentred_apply, broadcastTo_a1_ab_apply,
    broadcastTo_1b_ab_apply, broadcastTo_1b_ab_apply, shapeCast_self, shapeCast_self]
  show max (_ * Ideal.rsqrt (kVar h (ix2 p (0 : Fin 1)) + _) * _ + _) _ = _
  rw [kVar_apply]
  rfl

theorem kScore_apply (z : FVec Ideal S8000x128 .f32) (w : FVec Ideal S128x1 .bf16) (x6 : Vec Ideal S1x1 .f32) (p : Fin 8000) (u : Fin 1) :
    kScore z w x6 (ix2 p u) = Ideal.logistic ((∑ k : Fin 128, z (ix2 p k) * w (ix2 k u)) + x6 (ix2 (0 : Fin 1) u)) := by
  unfold kScore
  show Ideal.logistic (_ + _) = _
  rw [matmulB_apply, broadcastTo_1b_ab_apply, shapeCast_self]
  rfl

/-- THE BODY'S STORE AT A ROW: entry `(p, u)` of the block the body writes is the score of row `p` of the edge
    block under the weights the other blocks hold. -/
theorem pay_row (x0 : Vec Ideal S8000x128 .f32) (x1 : Vec Ideal S128x128 .f32) (x2 x3 x4 : Vec Ideal S1x128 .f32)
    (x5 : Vec Ideal S128x1 .f32) (x6 : Vec Ideal S1x1 .f32) (p : Fin 8000) (u : Fin 1) :
    k0_pay1 (F := Ideal) (k0_pay2 (F := Ideal) x0 x1 x2 x3 x4) (k0_pay3 (F := Ideal) x5) x6 (ix2 p u)
      = score (fun k => x0 (ix2 p k)) (fun k j => x1 (ix2 k j)) (fun j => x2 (ix2 (0 : Fin 1) j))
          (fun j => x3 (ix2 (0 : Fin 1) j)) (fun j => x4 (ix2 (0 : Fin 1) j)) (fun k => x5 (ix2 k u)) (x6 (ix2 (0 : Fin 1) u)) := by
  rw [pay1_eq, pay2_eq, pay3_eq, kScore_apply]
  unfold score EdgeScore.hidden
  simp only [kHidden_apply, kLin_apply, truncf_apply]

end Cert.KernelIdeal.RowValue

end
-- ==== Proof.KernelArray.lean ====
/-
  From the body's blocks to the result array.

  Grid point `t` hands the body rows `8000·t … 8000·t + 7999` of the edge features and the whole of every
  weight array, and writes back rows `8000·t …` of the `[1600000, 1]` score column; the 200 points cover the
  column. So after the region the column holds, at row `R`, the score of edge-feature row `R`; the reshape
  after the region reads that column as a vector. The arrays the region finds are: the edge features
  `x[row] * x[col]` computed by the host operations before it, `W1` and `w2` as launched, and the bias, gain
  and shift rows as `[1, 128]` (`[1, 1]`) reshapes of the launched vectors.
-/
import proofs.«133494_j55216099557609_1_alg».proof.Proof.Gen.KernelIdeal.Frame
import proofs.«133494_j55216099557609_1_alg».proof.Proof.KernelRow
import Idealize.ShloMosaic.Lib.Pipeline.Value
import Idealize.ShloMosaic.Lib.ValueLayout
import Idealize.ShloMosaic.Lib.ValueIdx
import Idealize.ShloMosaic.Lib.StableHlo.Run

set_option maxRecDepth 16384

open scoped BigOperators

noncomputable section

namespace Cert.KernelIdeal.ArrayValue

open Cert.KernelIdeal Cert.KernelIdeal.Gen Idealize.ShloMosaic Idealize.ShloMosaic.TcCoe Idealize.ShloMosaic.ValueIdx Idealize.SL.Sem EdgeScore
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, at their literal types -/

abbrev eArr (c : Dev nD) : Vec Ideal S1600000x128 .f32 := V m c main_v18
abbrev w1Arr (c : Dev nD) : Vec Ideal S128x128 .f32 := V m c main_arg3
abbrev b1Arr (c : Dev nD) : Vec Ideal S1x128 .f32 := V m c main_v19
abbrev gArr (c : Dev nD) : Vec Ideal S1x128 .f32 := V m c main_v20
abbrev shArr (c : Dev nD) : Vec Ideal S1x128 .f32 := V m c main_v21
abbrev w2Arr (c : Dev nD) : Vec Ideal S128x1 .f32 := V m c main_arg7
abbrev b2Arr (c : Dev nD) : Vec Ideal S1x1 .f32 := V m c main_v22

/-- The score column: row `R` is the score of edge-feature row `R`. -/
def scoreCol (c : Dev nD) : Vec Ideal S1600000x1 .f32 := fun i =>
  score (fun k => eArr m c (ix2 (i 0) k)) (fun k j => w1Arr m c (ix2 k j)) (fun j => b1Arr m c (ix2 (0 : Fin 1) j))
    (fun j => gArr m c (ix2 (0 : Fin 1) j)) (fun j => shArr m c (ix2 (0 : Fin 1) j))
    (fun k => w2Arr m c (ix2 k (0 : Fin 1))) (b2Arr m c (ix2 (0 : Fin 1) (0 : Fin 1)))

/-! ## The index maps over the grid -/

/-- Windows 0 and 7 move down the rows with the point; every other window stays at the origin. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 199 :=
  (by decide +kernel : ∀ t : Fin grid0.N, _)

/-- Every block of rows is some point's. -/
theorem idx_onto : ∀ q : Fin 200, ∃ t : Fin cfg0.N, win0_7.index t = ![q.val, 0] :=
  (by decide +kernel : ∀ q : Fin 200, ∃ t : Fin grid0.N, win0_7.index t = ![q.val, 0])

/-! ## The input blocks at a point, read off the arrays -/

/-- Row `p` of point `t`'s edge block is row `8000·t + p` of the edge features (the row the output block's
    row `p` lands on). -/
theorem blk0 (c : Dev nD) (t : Fin cfg0.N) (p : Fin 8000) (k : Fin 128) : iblk m c 0 t (ix2 p k) = eArr m c (ix2 ((((cfg0.win 7).blk t).view.emb (ix2 p (0 : Fin 1))) 0) k) := by
  obtain ⟨e00, e01, e10, e11, e20, e21, e30, e31, e40, e41, e50, e51, e60, e61, e71, -⟩ := idx_facts t
  show V m c main_v18 (((cfg0.win 0).blk t).view.emb (ix2 p k)) = V m c main_v18 _
  refine congrArg (V m c main_v18) (funext fun a => Fin.ext ?_)
  match a with
  | ⟨0, _⟩ => show win0_0.index t (0 : Fin 2) * 8000 + 1 * p.val = win0_7.index t (0 : Fin 2) * 8000 + 1 * p.val; omega
  | ⟨1, _⟩ => show win0_0.index t (1 : Fin 2) * 128 + 1 * k.val = k.val; omega

theorem blk1 (c : Dev nD) (t : Fin cfg0.N) (k j : Fin 128) : iblk m c 1 t (ix2 k j) = w1Arr m c (ix2 k j) := by
  obtain ⟨e00, e01, e10, e11, e20, e21, e30, e31, e40, e41, e50, e51, e60, e61, e71, -⟩ := idx_facts t
  show V m c main_arg3 (((cfg0.win 1).blk t).view.emb (ix2 k j)) = V m c main_arg3 _
  refine congrArg (V m c main_arg3) (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega

theorem blk2 (c : Dev nD) (t : Fin cfg0.N) (j : Fin 128) : iblk m c 2 t (ix2 (0 : Fin 1) j) = b1Arr m c (ix2 (0 : Fin 1) j) := by
  obtain ⟨e00, e01, e10, e11, e20, e21, e30, e31, e40, e41, e50, e51, e60, e61, e71, -⟩ := idx_facts t
  show V m c main_v19 (((cfg0.win 2).blk t).view.emb (ix2 (0 : Fin 1) j)) = V m c main_v19 _
  refine congrArg (V m c main_v19) (funext fun a => Fin.ext ?_)
  match a with
  | ⟨0, _⟩ => show win0_2.index t (0 : Fin 2) * 1 + 1 * 0 = 0; omega
  | ⟨1, _⟩ => show win0_2.index t (1 : Fin 2) * 128 + 1 * j.val = j.val; omega

theorem blk3 (c : Dev nD) (t : Fin cfg0.N) (j : Fin 128) : iblk m c 3 t (ix2 (0 : Fin 1) j) = gArr m c (ix2 (0 : Fin 1) j) := by
  obtain ⟨e00, e01, e10, e11, e20, e21, e30, e31, e40, e41, e50, e51, e60, e61, e71, -⟩ := idx_facts t
  show V m c main_v20 (((cfg0.win 3).blk t).view.emb (ix2 (0 : Fin 1) j)) = V m c main_v20 _
  refine congrArg (V m c main_v20) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

theorem blk4 (c : Dev nD) (t : Fin cfg0.N) (j : Fin 128) : iblk m c 4 t (ix2 (0 : Fin 1) j) = shArr m c (ix2 (0 : Fin 1) j) := by
  obtain ⟨e00, e01, e10, e11, e20, e21, e30, e31, e40, e41, e50, e51, e60, e61, e71, -⟩ := idx_facts t
  show V m c main_v21 (((cfg0.win 4).blk t).view.emb (ix2 (0 : Fin 1) j)) = V m c main_v21 _
  refine congrArg (V m c main_v21) (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega

theorem blk5 (c : Dev nD) (t : Fin cfg0.N) (k : Fin 128) : iblk m c 5 t (ix2 k (0 : Fin 1)) = w2Arr m c (ix2 k (0 : Fin 1)) := by
  obtain ⟨e00, e01, e10, e11, e20, e21, e30, e31, e40, e41, e50, e51, e60, e61, e71, -⟩ := idx_facts t
  show V m c main_arg7 (((cfg0.win 5).blk t).view.emb (ix2 k (0 : Fin 1))) = V m c main_arg7 _
  refine congrArg (V m c main_arg7) (funext fun a => Fin.ext ?_)
  match a with
  | ⟨0, _⟩ => show win0_5.index t (0 : Fin 2) * 128 + 1 * k.val = k.val; omega
  | ⟨1, _⟩ => show win0_5.index t (1 : Fin 2) * 1 + 1 * 0 = 0; omega

theorem blk6 (c : Dev nD) (t : Fin cfg0.N)  : iblk m c 6 t (ix2 (0 : Fin 1) (0 : Fin 1)) = b2Arr m c (ix2 (0 : Fin 1) (0 : Fin 1)) := by
  obtain ⟨e00, e01, e10, e11, e20, e21, e30, e31, e40, e41, e50, e51, e60, e61, e71, -⟩ := idx_facts t
  show V m c main_v22 (((cfg0.win 6).blk t).view.emb (ix2 (0 : Fin 1) (0 : Fin 1))) = V m c main_v22 _
  refine congrArg (V m c main_v22) (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

/-! ## What point `t` writes back -/

theorem flushed_eq (c : Dev nD) (t : Fin cfg0.N) :
    (dats m 0 c).flushed 7 t = ((cfg0.win 7).blk t).view.read (Elt Ideal) (scoreCol m c) := by
  show (cfg0.win 7).cut (grid0.coords t) ((dats m 0 c).after 7 t) = _
  rw [after0_7]
  unfold out0_7
  rw [View.canon_unit_zero hz]
  simp only [View.ld_unit_zero (S := S8000x128) hz, View.ld_unit_zero (S := S128x128) hz, View.ld_unit_zero (S := S1x128) hz,
    View.ld_unit_zero (S := S128x1) hz, View.ld_unit_zero (S := S1x1) hz]
  funext y
  obtain ⟨p, u, rfl⟩ : ∃ (p : Fin 8000) (u : Fin 1), y = ix2 p u := ⟨y 0, y 1, eq_ix2 y⟩
  obtain rfl : u = 0 := Subsingleton.elim _ _
  refine (RowValue.pay_row (iblk m c 0 t) (iblk m c 1 t) (iblk m c 2 t) (iblk m c 3 t) (iblk m c 4 t) (iblk m c 5 t) (iblk m c 6 t) p (0 : Fin 1)).trans ?_
  show _ = scoreCol m c (((cfg0.win 7).blk t).view.emb (ix2 p (0 : Fin 1)))
  unfold scoreCol
  simp only [blk0, blk1, blk2, blk3, blk4, blk5, blk6]

/-! ## The cover -/

theorem mem_blk (t : Fin cfg0.N) (i : S1600000x1.Idx) :
    i ∈ ((cfg0.win 7).blk t).view.set ↔ ∀ a : Fin 2, win0_7.index t a * S8000x1.size a ≤ (i a).val ∧ (i a).val < win0_7.index t a * S8000x1.size a + S8000x1.size a := by
  show i ∈ ((View.whole main_v23).slice (win0_7.rect t)).set ↔ _
  rw [View.set_slice_whole, Rect.mem_set_unit]
  exact Iff.rfl

/-- Row `R` of the column is written by point `R / 8000`. -/
theorem cover (i : S1600000x1.Idx) : ∃ t : Fin cfg0.N, (cfg0.win 7).flush t = true ∧ i ∈ ((cfg0.win 7).blk t).view.set := by
  have hi0 : (i 0).val < 1600000 := (i 0).isLt
  have hi1 : (i 1).val < 1 := (i 1).isLt
  obtain ⟨t, ht⟩ := idx_onto ⟨(i 0).val / 8000, by omega⟩
  have q0 : win0_7.index t (0 : Fin 2) = (i 0).val / 8000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 1 ≤ (i 1).val ∧ (i 1).val < win0_7.index t (1 : Fin 2) * 1 + 1; omega

/-- THE COLUMN after the region. -/
theorem final (c : Dev nD) : (dats m 0 c).arrAt 7 cfg0.N = scoreCol m c :=
  (dats m 0 c).arrAt_eq_of_cover 7 (scoreCol m c) (fun t _ => flushed_eq m c t) cover

end Cert.KernelIdeal.ArrayValue

end
-- ==== Proof.KernelHost.lean ====
/-
  The kernel program's result as a function of its arguments.

  Before the region the host operations build the edge features `x[row] * x[col]` (two row gathers with the
  indices' negative values wrapped by the table length, and a product) and view the bias, gain, shift and second
  bias as `[1, 128]` / `[1, 1]` arrays; after the region one reshape reads the score column as a vector. With the
  column known (`ArrayValue.final`) the result at edge `R` is the score of edge-feature row `R` under the launched
  weights.
-/
import proofs.«133494_j55216099557609_1_alg».proof.Proof.KernelArray
import Idealize.ShloMosaic.Lib.Pipeline.Value
import Idealize.ShloMosaic.Lib.ValueLayout
import Idealize.ShloMosaic.Lib.ValueIdx
import Idealize.ShloMosaic.Lib.StableHlo.Run

set_option maxRecDepth 16384

open scoped BigOperators

noncomputable section

namespace Cert.KernelIdeal.HostValue

open Cert.KernelIdeal Cert.KernelIdeal.Gen Cert.KernelIdeal.ArrayValue Idealize.ShloMosaic Idealize.ShloMosaic.TcCoe Idealize.ShloMosaic.ValueIdx Idealize.SL.Sem EdgeScore
open Idealize.ShloMosaic.StableHlo

variable (m : (ℓ : Loc nD τ sig) → Buf (Elt Ideal) ℓ) (ρ : Dev nD → PrngReg)

/-! ## The host operations before the region -/

/-- Row `o` of the `[2, E]` index array as a vector of `E` indices. -/
def idxRow (ei : IVec S2x1600000 32) (o : Nat) (h : S2x1600000.Slices ![o, 0] S1x1600000) : IVec S1600000 32 :=
  shapeCast _ (extractStridedSlice S1x1600000 ![o, 0] ei h) shapeCasts_S1x1600000_S1600000

/-- A negative index counts from the end of the table: `i < 0 ↦ i + 100000`. -/
def wrapIdx (r : IVec S1600000 32) : IVec S1600000 32 :=
  select (cmpi .slt r (broadcastInDim S1600000 ![] bcast_S_S1600000 (constantI S_ 32 0#32)))
    (addi r (broadcastInDim S1600000 ![] bcast_S_S1600000 (constantI S_ 32 100000#32))) r

/-- The rows of `x` the indices name. -/
def takeRows (x : Vec Ideal S100000x128 .f32) (r : IVec S1600000 32) : FVec Ideal S1600000x128 .f32 :=
  Host.gather gather_S100000x128_S1600000x1_S1600000x128_1_0_n_n_0_1_1128 x
    (broadcastInDim S1600000x1 ![0] bcast_S1600000_S1600000x1_0 (wrapIdx r))

/-- The edge features `x[row] * x[col]`. -/
def edgeFeat (x : Vec Ideal S100000x128 .f32) (ei : IVec S2x1600000 32) : FVec Ideal S1600000x128 .f32 :=
  mulf (takeRows x (idxRow ei 0 slices_S2x1600000_S1x1600000_0_0)) (takeRows x (idxRow ei 1 slices_S2x1600000_S1x1600000_1_0))

/-- The one stretch of host operations before the region, as the list the region's entry valuation folds over. -/
theorem prefix_eq : (List.flatten [hostOps0] : List (HloOp τ sig (Elt Ideal))) = hostOps0 := by
  simp only [List.flatten_cons, List.flatten_nil, List.append_nil]

set_option maxHeartbeats 4000000 in  -- the host prefix is 23 operations long before the product is written
theorem eArr_eq (c : Dev nD) :
    eArr m c = edgeFeat (m ((c : Thread nD τ).loc main_arg0)) (m ((c : Thread nD τ).loc main_arg1)) := by
  show StableHlo.after (List.flatten [hostOps0]) (fun b => m (c, b)) (Proc.devRef .tc main_v18) = _
  rw [prefix_eq]
  after_results
  rfl

theorem b1Arr_eq (c : Dev nD) : b1Arr m c = shapeCast S1x128 (m ((c : Thread nD τ).loc main_arg4)) shapeCasts_S128_S1x128 := by
  show StableHlo.after hostOps0 (fun b => m (c, b)) (Proc.devRef .tc main_v19) = _
  after_results
  rfl
theorem gArr_eq (c : Dev nD) : gArr m c = shapeCast S1x128 (m ((c : Thread nD τ).loc main_arg5)) shapeCasts_S128_S1x128 := by
  show StableHlo.after hostOps0 (fun b => m (c, b)) (Proc.devRef .tc main_v20) = _
  after_results
  rfl
theorem shArr_eq (c : Dev nD) : shArr m c = shapeCast S1x128 (m ((c : Thread nD τ).loc main_arg6)) shapeCasts_S128_S1x128 := by
  show StableHlo.after hostOps0 (fun b => m (c, b)) (Proc.devRef .tc main_v21) = _
  after_results
  rfl
theorem b2Arr_eq (c : Dev nD) : b2Arr m c = shapeCast S1x1 (m ((c : Thread nD τ).loc main_arg8)) shapeCasts_S1_S1x1 := by
  show StableHlo.after hostOps0 (fun b => m (c, b)) (Proc.devRef .tc main_v22) = _
  after_results
  rfl
theorem w1Arr_eq (c : Dev nD) : w1Arr m c = m ((c : Thread nD τ).loc main_arg3) := V_main_arg3 m c
theorem w2Arr_eq (c : Dev nD) : w2Arr m c = m ((c : Thread nD τ).loc main_arg7) := V_main_arg7 m c

/-! ## The result -/

/-- The result vector as a function of the launched arguments: edge `R`'s score. -/
def resultOf (x : Vec Ideal S100000x128 .f32) (ei : IVec S2x1600000 32) (W1 : Vec Ideal S128x128 .f32) (b1 g sh : Vec Ideal S128 .f32)
    (W2 : Vec Ideal S128x1 .f32) (b2 : Vec Ideal S1 .f32) : Vec Ideal S1600000 .f32 := fun i =>
  score (fun k => edgeFeat x ei (ix2 (i 0) k)) (fun k j => W1 (ix2 k j)) (fun j => b1 (ix1 j)) (fun j => g (ix1 j)) (fun j => sh (ix1 j))
    (fun k => W2 (ix2 k (0 : Fin 1))) (b2 (ix1 (0 : Fin 1)))

/-- The score column in terms of the launched arguments. -/
theorem scoreCol_eq (c : Dev nD) (R : Fin 1600000) :
    scoreCol m c (ix2 R (0 : Fin 1)) = resultOf (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (ix1 R) := by
  unfold scoreCol resultOf
  rw [eArr_eq, b1Arr_eq, gArr_eq, shArr_eq, b2Arr_eq, w1Arr_eq, w2Arr_eq]
  simp only [shapeCast_a_1a_apply]

/-- What the reshape after the region leaves in the result buffer. -/
theorem result_eq (c : Dev nD) :
    Pipeline.afterTail₀ cfgs (dats m) 0 (V0 m) [hostOps1] c main_v24
      = resultOf (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  unfold Pipeline.afterTail₀
  show StableHlo.after hostOps1 _ (Proc.devRef .tc main_v24) = _
  after_results
  have hcol : Pipeline.withArrays (cfgs 0).spec c (V0 m c) (fun w => (dats m 0 c).arrAt w (cfgs 0).N) (Proc.devRef .tc main_v23)
      = scoreCol m c :=
    (Pipeline.withArrays_arr spec0 launch0.win.arr_inj c _ _ 7).trans (final m c)
  rw [hcol]
  funext i
  obtain ⟨R, rfl⟩ : ∃ R : Fin 1600000, i = ix1 R := ⟨i 0, eq_ix1 i⟩
  refine Eq.trans ?_ (scoreCol_eq m c R)
  exact shapeCast_apply (scoreCol m c) shapeCasts_S1600000x1_S1600000 (ix1 R) (ix2 R (0 : Fin 1)) (by
    rw [Shape.rowMajor_val_two, Shape.rowMajor_val_one]
    show R.val * 1 + 0 = R.val
    omega)

/-! ## The run, read -/

/-- Every weakly fair execution of the kernel program ends with the result vector at `resultOf` of the launched
    arguments, and the arguments unchanged. -/
theorem run : θ_run defs (onTc (τ := τ) (main (F := Ideal))) ⟨m, fun _ => 0, ρ⟩ (fun r => ∀ c : Dev nD,
      r.2.mem ((c.tc : Thread nD τ).loc main_v24) = resultOf (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v24 (Pipeline.mem_restRefs_of main_v24 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 5).trans (((dats m 0 c).arrAt_in 5 rfl _).trans ((A_eq m c 5).trans (V_main_arg7 m c))),
      (((h c).2 main_arg8 (Pipeline.mem_restRefs_of main_arg8 (by decide) (by decide))).trans (W_main_arg8 m (dats m) c))⟩) (run_main m ρ)

end Cert.KernelIdeal.HostValue

end
-- ==== Proof.RefRow.lean ====
/-
  The reference, read at a row.

  The reference computes the same chain on the whole 1,600,000 × 128 array of edge features at once: a
  `dot_general` (a plain sum over the contracted index on the extended reals), two sums over the channel axis
  (each the initial +0 plus the sum of the row), broadcasts of per-row columns and of the weight rows, and the
  logistic spelt as `1 / (1 + exp (−x))`. Read at row `R` each stage is the corresponding stage of
  `EdgeScore.score` on row `R` of the edge features.
-/
import proofs.«133494_j55216099557609_1_alg».proof.Proof.Gen.ReferenceIdeal.Read
import proofs.«133494_j55216099557609_1_alg».proof.Proof.RowScore
import Idealize.ShloMosaic.Lib.ValueIdx
import Idealize.ShloMosaic.PureOps.Ideal.Laws

open scoped BigOperators

noncomputable section

namespace Cert.ReferenceIdeal.RowValue

open Cert.ReferenceIdeal Cert.ReferenceIdeal.Gen Cert.ReferenceIdeal.Read Idealize.ShloMosaic Idealize.ShloMosaic.ValueIdx EdgeScore

variable (x0 : (⟨S100000x128, .f32⟩ : BufTy).Contents (Elt Ideal)) (x1 : (⟨S2x1600000, .i32⟩ : BufTy).Contents (Elt Ideal))
  (x3 : (⟨S128x128, .f32⟩ : BufTy).Contents (Elt Ideal)) (x4 x5 x6 : (⟨S128, .f32⟩ : BufTy).Contents (Elt Ideal))
  (x7 : (⟨S128x1, .f32⟩ : BufTy).Contents (Elt Ideal)) (x8 : (⟨S1, .f32⟩ : BufTy).Contents (Elt Ideal))

/-- Row `R` of the edge features `x[row] * x[col]`. -/
def erow (R : Fin 1600000) : Fin 128 → EReal := fun k => val_main_v18 (F := Ideal) x0 x1 (ix2 R k)

/-- Row `R` after the first linear layer. -/
def hrow (R : Fin 1600000) : Fin 128 → EReal := fun j => val_main_v22 (F := Ideal) x0 x1 x3 x4 (ix2 R j)

/-! ## Index bookkeeping: the printed index maps at `(R, j)` -/

theorem lidx19 (R : Fin 1600000) (j k : Fin 128) : lidx_main_v19 (ix2 R j) k = ix2 R k :=
  funext fun a => Fin.ext (by match a with | ⟨0, _⟩ => rfl | ⟨1, _⟩ => rfl)
theorem ridx19 (R : Fin 1600000) (j k : Fin 128) : ridx_main_v19 (ix2 R j) k = ix2 k j :=
  funext fun a => Fin.ext (by match a with | ⟨0, _⟩ => rfl | ⟨1, _⟩ => rfl)
theorem idx20_21 (R : Fin 1600000) (j : Fin 128) : idx_main_v20 (idx_main_v21 (ix2 R j)) = ix1 j :=
  funext fun a => Fin.ext (by match a with | ⟨0, _⟩ => rfl)
theorem idx23_24 (R : Fin 1600000) (u : Fin 1) (k : Fin 128) : idx_main_v23 (idx_main_v24 (ix2 R u)) k = ix2 R k :=
  funext fun a => Fin.ext (by match a with | ⟨0, _⟩ => rfl | ⟨1, _⟩ => rfl)
theorem idx27 (R : Fin 1600000) (j : Fin 128) : idx_main_v27 (ix2 R j) = ix2 R (0 : Fin 1) :=
  funext fun a => Fin.ext (by match a with | ⟨0, _⟩ => rfl | ⟨1, _⟩ => rfl)
theorem idx30_31 (R : Fin 1600000) (u : Fin 1) (k : Fin 128) : idx_main_v30 (idx_main_v31 (ix2 R u)) k = ix2 R k :=
  funext fun a => Fin.ext (by match a with | ⟨0, _⟩ => rfl | ⟨1, _⟩ => rfl)
theorem idx34 (R : Fin 1600000) (j : Fin 128) : idx_main_v34 (ix2 R j) = ix2 R (0 : Fin 1) :=
  funext fun a => Fin.ext (by match a with | ⟨0, _⟩ => rfl | ⟨1, _⟩ => rfl)
theorem idx39 (R : Fin 1600000) (j : Fin 128) : idx_main_v39 (ix2 R j) = ix2 R (0 : Fin 1) :=
  funext fun a => Fin.ext (by match a with | ⟨0, _⟩ => rfl | ⟨1, _⟩ => rfl)
theorem idx41_42 (R : Fin 1600000) (j : Fin 128) : idx_main_v41 (idx_main_v42 (ix2 R j)) = ix1 j :=
  funext fun a => Fin.ext (by match a with | ⟨0, _⟩ => rfl)
theorem idx44_45 (R : Fin 1600000) (j : Fin 128) : idx_main_v44 (idx_main_v45 (ix2 R j)) = ix1 j :=
  funext fun a => Fin.ext (by match a with | ⟨0, _⟩ => rfl)
theorem lidx48 (R : Fin 1600000) (u : Fin 1) (k : Fin 128) : lidx_main_v48 (ix2 R u) k = ix2 R k :=
  funext fun a => Fin.ext (by match a with | ⟨0, _⟩ => rfl | ⟨1, _⟩ => rfl)
theorem ridx48 (R : Fin 1600000) (u : Fin 1) (k : Fin 128) : ridx_main_v48 (ix2 R u) k = ix2 k u :=
  funext fun a => Fin.ext (by match a with | ⟨0, _⟩ => rfl | ⟨1, _⟩ => rfl)
theorem idx49_50 (i : S1600000x1.Idx) : idx_main_v49 (idx_main_v50 i) = ix1 (0 : Fin 1) :=
  funext fun a => Fin.ext (by match a with | ⟨0, _⟩ => rfl)
theorem idx58 (R : Fin 1600000) : idx_main_v58 (ix1 R) = ix2 R (0 : Fin 1) :=
  funext fun a => Fin.ext (by match a with | ⟨0, _⟩ => exact Nat.div_one _ | ⟨1, _⟩ => rfl)

/-! ## The stages at row `R` -/

/-- The first layer: entry `j` of row `R` is `lin` of the edge-feature row. -/
theorem hrow_eq (R : Fin 1600000) (j : Fin 128) :
    hrow x0 x1 x3 x4 R j = lin (erow x0 x1 R) (fun k j => x3 (ix2 k j)) (fun j => x4 (ix1 j)) j := by
  unfold hrow lin erow
  rw [val_main_v22_apply, val_main_v19_apply, val_main_v21_apply, val_main_v20_apply]
  simp only [lidx19, ridx19, idx20_21]
  rfl

/-- The mean column at row `R`. -/
theorem mean_eq (R : Fin 1600000) (u : Fin 1) :
    val_main_v26 (F := Ideal) x0 x1 x3 x4 (ix2 R u) = mean (hrow x0 x1 x3 x4 R) := by
  unfold mean hrow
  rw [val_main_v26_apply, val_main_v24_apply, val_main_v23_apply, val_main_v25_apply, val_main_cst_3_apply, val_main_cst_apply]
  simp only [idx23_24]
  show Ideal.div (Ideal.ofBits .f32 0x00000000#32 + _) _ = _
  rw [Ideal.ofBits_zero_f32, zero_add]
  rfl

/-- The centred entry (the operand of the square). -/
theorem centredA_eq (R : Fin 1600000) (j : Fin 128) :
    val_main_v28 (F := Ideal) x0 x1 x3 x4 (ix2 R j) = hrow x0 x1 x3 x4 R j - mean (hrow x0 x1 x3 x4 R) := by
  rw [val_main_v28_apply, val_main_v27_apply, idx27, mean_eq]
  rfl

/-- The centred entry (the operand of the normalisation; the program computes it a second time). -/
theorem centredB_eq (R : Fin 1600000) (j : Fin 128) :
    val_main_v35 (F := Ideal) x0 x1 x3 x4 (ix2 R j) = hrow x0 x1 x3 x4 R j - mean (hrow x0 x1 x3 x4 R) := by
  rw [val_main_v35_apply, val_main_v34_apply, idx34, mean_eq]
  rfl

/-- The variance column at row `R`. -/
theorem var_eq (R : Fin 1600000) (u : Fin 1) :
    val_main_v33 (F := Ideal) x0 x1 x3 x4 (ix2 R u) = var (hrow x0 x1 x3 x4 R) := by
  unfold var
  rw [val_main_v33_apply, val_main_v31_apply, val_main_v30_apply, val_main_v32_apply, val_main_cst_5_apply, val_main_cst_4_apply]
  simp only [idx30_31, val_main_v29_apply, centredA_eq]
  show Ideal.div (Ideal.ofBits .f32 0x00000000#32 + _) _ = _
  rw [Ideal.ofBits_zero_f32, zero_add]
  rfl

/-- Normalisation, gain and shift at `(R, j)`. -/
theorem lnorm_eq (R : Fin 1600000) (j : Fin 128) :
    val_main_v46 (F := Ideal) x0 x1 x3 x4 x5 x6 (ix2 R j)
      = lnorm (hrow x0 x1 x3 x4 R) (fun j => x5 (ix1 j)) (fun j => x6 (ix1 j)) j := by
  unfold lnorm
  rw [val_main_v46_apply, val_main_v43_apply, val_main_v40_apply, val_main_v39_apply, val_main_v38_apply, val_main_v37_apply,
    val_main_v36_apply, val_main_cst_6_apply, val_main_v42_apply, val_main_v41_apply, val_main_v45_apply, val_main_v44_apply,
    centredB_eq, idx39, var_eq, idx41_42, idx44_45]
  rfl

/-- The rectified hidden entry at `(R, k)`. -/
theorem hidden_eq (R : Fin 1600000) (k : Fin 128) :
    val_main_v47 (F := Ideal) x0 x1 x3 x4 x5 x6 (ix2 R k)
      = EdgeScore.hidden (erow x0 x1 R) (fun k j => x3 (ix2 k j)) (fun j => x4 (ix1 j)) (fun j => x5 (ix1 j)) (fun j => x6 (ix1 j)) k := by
  unfold EdgeScore.hidden relu
  rw [val_main_v47_apply, val_main_call0_v0_apply, val_main_call0_cst_apply, lnorm_eq]
  have hh : hrow x0 x1 x3 x4 R = lin (erow x0 x1 R) (fun k j => x3 (ix2 k j)) (fun j => x4 (ix1 j)) :=
    funext fun j => hrow_eq x0 x1 x3 x4 R j
  rw [hh]
  rfl

/-- THE REFERENCE AT A ROW: entry `R` of the result is the score of row `R` of the edge features. -/
theorem ref_row (R : Fin 1600000) :
    val_main_v58 (F := Ideal) x0 x1 x3 x4 x5 x6 x7 x8 (ix1 R)
      = score (erow x0 x1 R) (fun k j => x3 (ix2 k j)) (fun j => x4 (ix1 j)) (fun j => x5 (ix1 j)) (fun j => x6 (ix1 j))
          (fun k => x7 (ix2 k (0 : Fin 1))) (x8 (ix1 (0 : Fin 1))) := by
  unfold score
  rw [val_main_v58_apply, idx58, val_main_v57_apply, val_main_v56_apply, val_main_cst_8_apply, val_main_v55_apply,
    val_main_v54_apply, val_main_cst_7_apply, val_main_v53_apply, val_main_v52_apply, val_main_v51_apply, val_main_v48_apply,
    val_main_v50_apply, val_main_v49_apply, idx49_50]
  simp only [lidx48, ridx48, hidden_eq]
  exact logistic_spelt _

end Cert.ReferenceIdeal.RowValue

end
-- ==== Proof.lean ====
/-
  An edge-scoring MLP: for each of 1,600,000 edges the feature row `x[row] * x[col]` (128 channels) goes through a
  linear layer, a layer normalisation with gain and shift, a rectifier, a second linear layer to one channel and
  the logistic. The kernel program gathers the rows on the host, runs the MLP as one pallas_call over 200 blocks
  of 8000 edges and reshapes the `[E, 1]` column to a vector; the reference does everything on the host.

  At the ideal values both results are, at edge `R`, `EdgeScore.score` of row `R` of the same edge features under
  the same weights: a matrix product into a zero accumulator and a `dot_general` are one sum over the contracted
  channel, a lane sum and a host sum of a row are one sum (the host's starts from +0), the change of format to
  bf16 is the identity, `128.0` and `ε` are the same words on both sides, and the kernel's one logistic operation is
  `1 / (1 + exp (−x))`, which the reference spells out. No algebraic law beyond `0 + s = s` and `1.0 = 1` is
  used, so the precondition (finite inputs) is never opened.

  The frames of the two kernel programs are the generated ones; the reference's frame is its generated run with
  the result dropped; the ideal pass rewrote nothing, so `preserves` has no conjunct.
-/
import proofs.«133494_j55216099557609_1_alg».proof.Defs
import proofs.«133494_j55216099557609_1_alg».proof.Proof.Gen.Kernel
import proofs.«133494_j55216099557609_1_alg».proof.Proof.Gen.Kernel.Frame
import proofs.«133494_j55216099557609_1_alg».proof.Proof.Gen.KernelIdeal
import proofs.«133494_j55216099557609_1_alg».proof.Proof.Gen.KernelIdeal.Frame
import proofs.«133494_j55216099557609_1_alg».proof.Proof.Gen.ReferenceIdeal
import proofs.«133494_j55216099557609_1_alg».proof.Proof.Gen.ReferenceIdeal.Run
import proofs.«133494_j55216099557609_1_alg».proof.Proof.Gen.ReferenceIdeal.Read
import proofs.«133494_j55216099557609_1_alg».proof.Proof.Gen.Pre_finite_inputs
import proofs.«133494_j55216099557609_1_alg».proof.Proof.KernelHost
import proofs.«133494_j55216099557609_1_alg».proof.Proof.RefRow
import Idealize.ShloMosaic.Adequacy
import Idealize.ShloMosaic.Init

noncomputable section

namespace Cert.Proof

open Idealize.ShloMosaic Idealize.ShloMosaic.ValueIdx Idealize.SL.Sem

/-- The two programs build the edge features by the same host operations on the same arguments. -/
theorem edge_eq (x : Vec Ideal Cert.KernelIdeal.S100000x128 .f32) (ei : IVec Cert.KernelIdeal.S2x1600000 32) :
    Cert.ReferenceIdeal.Read.val_main_v18 (F := Ideal) x ei = Cert.KernelIdeal.HostValue.edgeFeat x ei := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result vector at `resultOf` of the arguments: the kernel program by its run read
    through the blocks and the reshape, the reference by its run read row by row. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6, a7, a8⟩ := hagree c
  rw [Cert.ReferenceIdeal.Read.val_main_v58_eq, a0, a1, a3, a4, a5, a6, a7, a8]
  funext i
  obtain ⟨R, rfl⟩ : ∃ R : Fin 1600000, i = ix1 R := ⟨i 0, eq_ix1 i⟩
  refine (Cert.ReferenceIdeal.RowValue.ref_row _ _ _ _ _ _ _ _ R).trans ?_
  unfold Cert.KernelIdeal.HostValue.resultOf Cert.ReferenceIdeal.RowValue.erow
  rw [edge_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
